-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S16x4096x1024 .f32) (main_arg1 : IVec S16x4096 32) (main_arg2 : FVec F S4x1024x1024 .f32) (main_arg3 : FVec F S4x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S4x1024x1024 .f32 := Host.absf main_arg2
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S65536x1024 : Shape := ⟨2, ![65536, 1024]⟩
abbrev S65536 : Shape := ⟨1, ![65536]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S4x1024x1024, .f32⟩
  | .hbm, ⟨3, _⟩ => ⟨S4x1024, .f32⟩
  | .hbm, ⟨4, _⟩ => ⟨S65536x1024, .f32⟩
  | .hbm, ⟨5, _⟩ => ⟨S65536, .i32⟩
  | .hbm, ⟨6, _⟩ => ⟨S4x1024x1024, .f32⟩
  | .hbm, ⟨7, _⟩ => ⟨S4x1024x1024, .bf16⟩
  | .hbm, ⟨8, _⟩ => ⟨S65536x1024, .f32⟩
  | .hbm, ⟨9, _⟩ => ⟨S16x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .i32⟩
  | .local _ .vmem, ⟨3, _⟩ => ⟨S1024, .i32⟩
  | .local _ .vmem, ⟨4, _⟩ => ⟨S4x1024x1024, .bf16⟩
  | .local _ .vmem, ⟨5, _⟩ => ⟨S4x1024, .f32⟩
  | .local _ .vmem, ⟨6, _⟩ => ⟨S1024x1024, .f32⟩
  | .local _ .vmem, ⟨7, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x1024_S65536x1024 : S16x4096x1024.ShapeCasts S65536x1024
  shapeCasts_S16x4096_S65536 : S16x4096.ShapeCasts S65536
  transposes_S4x1024x1024_S4x1024x1024_0_2_1 : S4x1024x1024.Transposes [0, 2, 1] S4x1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  natLt_1_32 : 1 < 32
  shapeCasts_S1024_S1024x1 : S1024.ShapeCasts S1024x1
  broadcasts_S1024x1_S1024x1024 : S1024x1.Broadcasts S1024x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  shapeCasts_S65536x1024_S16x4096x1024 : S65536x1024.ShapeCasts S16x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S65536.size a
  hwx0_1 : ∀ i : grid0.Coords, EltTy.bits .i32 = 32 ∨ (Rect.block (s := S65536) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .bf16 = 32 ∨ (Rect.block (s := S4x1024x1024) S4x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S_ : Shape := ⟨0, ![]⟩
abbrev S16x4096x1 : Shape := ⟨3, ![16, 4096, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S4x1024x1024, .f32⟩
  | .hbm, ⟨3, _⟩ => ⟨S4x1024, .f32⟩
  | .hbm, ⟨4, _⟩ => ⟨S_, .f32⟩
  | .hbm, ⟨5, _⟩ => ⟨S16x4096x1024, .f32⟩
  | .hbm, ⟨6, _⟩ => ⟨S_, .i32⟩
  | .hbm, ⟨7, _⟩ => ⟨S16x4096, .i32⟩
  | .hbm, ⟨8, _⟩ => ⟨S16x4096, .i1⟩
  | .hbm, ⟨9, _⟩ => ⟨S16x4096x1, .i1⟩
  | .hbm, ⟨10, _⟩ => ⟨S16x4096x1, .f32⟩
  | .hbm, ⟨11, _⟩ => ⟨S1x1024x1024, .f32⟩
  | .hbm, ⟨12, _⟩ => ⟨S1024x1024, .f32⟩
  | .hbm, ⟨13, _⟩ => ⟨S16x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S_, .i32⟩
  | .hbm, ⟨23, _⟩ => ⟨S16x4096, .i32⟩
  | .hbm, ⟨24, _⟩ => ⟨S16x4096, .i1⟩
  | .hbm, ⟨25, _⟩ => ⟨S16x4096x1, .i1⟩
  | .hbm, ⟨26, _⟩ => ⟨S16x4096x1, .f32⟩
  | .hbm, ⟨27, _⟩ => ⟨S1x1024x1024, .f32⟩
  | .hbm, ⟨28, _⟩ => ⟨S1024x1024, .f32⟩
  | .hbm, ⟨29, _⟩ => ⟨S16x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .i32⟩
  | .hbm, ⟨39, _⟩ => ⟨S16x4096, .i32⟩
  | .hbm, ⟨40, _⟩ => ⟨S16x4096, .i1⟩
  | .hbm, ⟨41, _⟩ => ⟨S16x4096x1, .i1⟩
  | .hbm, ⟨42, _⟩ => ⟨S16x4096x1, .f32⟩
  | .hbm, ⟨43, _⟩ => ⟨S1x1024x1024, .f32⟩
  | .hbm, ⟨44, _⟩ => ⟨S1024x1024, .f32⟩
  | .hbm, ⟨45, _⟩ => ⟨S16x4096x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .i32⟩
  | .hbm, ⟨55, _⟩ => ⟨S16x4096, .i32⟩
  | .hbm, ⟨56, _⟩ => ⟨S16x4096, .i1⟩
  | .hbm, ⟨57, _⟩ => ⟨S16x4096x1, .i1⟩
  | .hbm, ⟨58, _⟩ => ⟨S16x4096x1, .f32⟩
  | .hbm, ⟨59, _⟩ => ⟨S1x1024x1024, .f32⟩
  | .hbm, ⟨60, _⟩ => ⟨S1024x1024, .f32⟩
  | .hbm, ⟨61, _⟩ => ⟨S16x4096x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  slices_S4x1024x1024_S1x1024x1024_0_0_0 : S4x1024x1024.Slices ![0, 0, 0] S1x1024x1024
  shapeCasts_S1x1024x1024_S1024x1024 : S1x1024x1024.ShapeCasts S1024x1024
  slices_S4x1024_S1x1024_0_0 : S4x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S16x4096x1_S16x4096x1024_0_1_2 : S16x4096x1.BroadcastsInDim S16x4096x1024 (![0, 1, 2] : Fin 3 → Fin S16x4096x1024.rank)
  slices_S4x1024x1024_S1x1024x1024_1_0_0 : S4x1024x1024.Slices ![1, 0, 0] S1x1024x1024
  slices_S4x1024_S1x1024_1_0 : S4x1024.Slices ![1, 0] S1x1024
  slices_S4x1024x1024_S1x1024x1024_2_0_0 : S4x1024x1024.Slices ![2, 0, 0] S1x1024x1024
  slices_S4x1024_S1x1024_2_0 : S4x1024.Slices ![2, 0] S1x1024
  slices_S4x1024x1024_S1x1024x1024_3_0_0 : S4x1024x1024.Slices ![3, 0, 0] S1x1024x1024
  slices_S4x1024_S1x1024_3_0 : S4x1024.Slices ![3, 0] S1x1024
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.RowSpec.lean ====
/-
  The mathematics both programs compute, one output row at a time.

  A row of the result depends on one row `x` of the activations (1024 numbers), on that row's declared
  feature size `f` (a 32-bit word), and on the four weight matrices and bias rows.  Branch `k` contributes
  `[f = c_k] · (Σ_i x_i · W_k[o, i] + b_k[o])`, where `[f = c_k]` is 1 when the word equals the branch's size
  (32, 64, 128, 256) and 0 otherwise; the row of the result is the four contributions added, in order, onto
  the zero the accumulation starts from.  Everything is over the extended reals.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.FeatLinear

open Idealize.ShloMosaic Idealize.ShloMosaic.ValueIdx

/-- The selection test of a row as a number: 1 when the row's word equals the branch's size, else 0. -/
def sel (f cst : BitVec 32) : EReal := (((IntOp.cmpi .eq f cst).toNat : ℝ) : EReal)

/-- One branch's contribution to entry `o` of a row: the selection number times (row · column `o` of the
    branch's matrix, plus the branch's bias at `o`).  `wk o i` is the matrix entry (output `o`, input `i`). -/
def branch (xrow : Fin 1024 → EReal) (f cst : BitVec 32) (wk : Fin 1024 → Fin 1024 → EReal) (bk : Fin 1024 → EReal)
    (o : Fin 1024) : EReal :=
  sel f cst * ((∑ i : Fin 1024, xrow i * wk o i) + bk o)

/-- Entry `o` of a row of the result: the four branches' contributions added in order onto the starting zero
    (kept as the float word both programs print for it). -/
def rowOut (xrow : Fin 1024 → EReal) (f : BitVec 32) (w : Fin 4 → Fin 1024 → Fin 1024 → EReal)
    (b : Fin 4 → Fin 1024 → EReal) (o : Fin 1024) : EReal :=
  Ideal.ofBits .f32 0x00000000#32 + branch xrow f 32#32 (w 0) (b 0) o + branch xrow f 64#32 (w 1) (b 1) o
    + branch xrow f 128#32 (w 2) (b 2) o + branch xrow f 256#32 (w 3) (b 3) o

/-- The whole result, indexed (batch, token, output): row (batch, token) of the activations against the four
    matrices `w[k, o, i]` and bias rows `bias[k, o]`, selected by `feat[batch, token]`. -/
def G (x : (⟨3, ![16, 4096, 1024]⟩ : Shape).Idx → EReal) (feat : (⟨2, ![16, 4096]⟩ : Shape).Idx → BitVec 32)
    (w : (⟨3, ![4, 1024, 1024]⟩ : Shape).Idx → EReal) (bias : (⟨2, ![4, 1024]⟩ : Shape).Idx → EReal) :
    (⟨3, ![16, 4096, 1024]⟩ : Shape).Idx → EReal :=
  fun j => rowOut (fun i => x (ix3 (j 0) (j 1) i)) (feat (ix2 (j 0) (j 1))) (fun k o i => w (ix3 k o i))
    (fun k o => bias (ix2 k o)) (j 2)

/-- The same result with batch and token flattened into one row index `n = batch · 4096 + token`, over the
    flattened activations `xf[n, i]`, flattened sizes `ff[n]`, and the matrices stored transposed,
    `wt[k, i, o] = w[k, o, i]`. -/
def Gflat (xf : (⟨2, ![65536, 1024]⟩ : Shape).Idx → EReal) (ff : (⟨1, ![65536]⟩ : Shape).Idx → BitVec 32)
    (wt : (⟨3, ![4, 1024, 1024]⟩ : Shape).Idx → EReal) (bias : (⟨2, ![4, 1024]⟩ : Shape).Idx → EReal) :
    (⟨2, ![65536, 1024]⟩ : Shape).Idx → EReal :=
  fun j => rowOut (fun i => xf (ix2 (j 0) i)) (ff (ix1 (j 0))) (fun k o i => wt (ix3 k i o))
    (fun k o => bias (ix2 k o)) (j 1)

/-- A one-bit word widened to 32 bits and read as a signed integer is the bit read as a natural number. -/
theorem toInt_setWidth_bit (b : BitVec 1) : ((b.setWidth 32).toInt : ℝ) = (b.toNat : ℝ) := by
  have h : ∀ b : BitVec 1, (b.setWidth 32).toInt = (b.toNat : ℤ) := by decide
  rw [h b]; norm_cast

end Cert.FeatLinear

end
-- ==== Proof.RefRow.lean ====
/-
  The reference, read at an index, is the row formula.

  The reference builds, branch by branch, a [16, 4096, 1] column of selection numbers, the product of the
  activations with one matrix (contracting the last axis of both), a bias row broadcast over batch and token,
  multiplies and accumulates.  Read at (batch, token, output) every layout step names one entry of an
  argument, and what is left is `rowOut` of that row.
-/
import proofs.«150245_j85925115724421_1_alg».proof.Proof.Gen.ReferenceIdeal.Read
import proofs.«150245_j85925115724421_1_alg».proof.Proof.RowSpec

noncomputable section

namespace Cert.FeatLinear.Ref

open Cert.ReferenceIdeal Cert.ReferenceIdeal.Gen Cert.ReferenceIdeal.Read Idealize.ShloMosaic Idealize.ShloMosaic.ValueIdx
open Cert.FeatLinear

variable (x0 : (⟨S16x4096x1024, .f32⟩ : BufTy).Contents (Elt Ideal)) (x1 : (⟨S16x4096, .i32⟩ : BufTy).Contents (Elt Ideal))
  (x2 : (⟨S4x1024x1024, .f32⟩ : BufTy).Contents (Elt Ideal)) (x3 : (⟨S4x1024, .f32⟩ : BufTy).Contents (Elt Ideal))

/-- Branch 0 (size 32) of the reference at (batch, token, output): the selection number of the row times (the
    row against row `o` of matrix 0, plus bias 0 at `o`).  The slice, the reshapes and the broadcasts each
    name one entry; the reshape of the [1, 1024, 1024] slice to [1024, 1024] keeps (o, i) because
    (o · 1024 + i) / 1024 = o and (o · 1024 + i) mod 1024 = i for i < 1024. -/
theorem ref_branch0 (b : Fin 16) (t : Fin 4096) (o : Fin 1024) :
    val_main_v14 (F := Ideal) x0 x1 x2 x3 (ix3 b t o)
      = branch (fun i => x0 (ix3 b t i)) (x1 (ix2 b t)) 32#32 (fun o i => x2 (ix3 (0 : Fin 4) o i)) (fun o => x3 (ix2 (0 : Fin 4) o)) o := by
  rw [val_main_v14_apply, val_main_v13_apply, val_main_v4_apply, val_main_v3_apply, val_main_v2_apply, val_main_v1_apply,
    val_main_c_apply, val_main_v12_apply, val_main_v7_apply, val_main_v11_apply, val_main_v10_apply, val_main_v9_apply,
    val_main_v8_apply]
  simp only [val_main_v6_apply, val_main_v5_apply]
  have efeat : idx_main_v3 (idx_main_v13 (ix3 b t o)) = ix2 b t :=
    funext fun a => Fin.ext (by match a with | ⟨0, _⟩ => rfl | ⟨1, _⟩ => rfl)
  have ebias : idx_main_v8 (idx_main_v9 (idx_main_v10 (idx_main_v11 (ix3 b t o)))) = ix2 (0 : Fin 4) o :=
    funext fun a => Fin.ext (by
      have ho : o.val < 1024 := o.isLt
      match a with
      | ⟨0, _⟩ => rfl
      | ⟨1, _⟩ => show o.val % 1024 = o.val; omega)
  have ex : ∀ i : Fin 1024, lidx_main_v7 (ix3 b t o) i = ix3 b t i := fun i =>
    funext fun a => Fin.ext (by match a with | ⟨0, _⟩ => rfl | ⟨1, _⟩ => rfl | ⟨2, _⟩ => rfl)
  have ew : ∀ i : Fin 1024, idx_main_v5 (idx_main_v6 (ridx_main_v7 (ix3 b t o) i)) = ix3 (0 : Fin 4) o i := fun i =>
    funext fun a => Fin.ext (by
      have ho : o.val < 1024 := o.isLt
      have hi : i.val < 1024 := i.isLt
      match a with
      | ⟨0, _⟩ => rfl
      | ⟨1, _⟩ => show (o.val * 1024 + i.val) / 1024 % 1024 = o.val; omega
      | ⟨2, _⟩ => show (o.val * 1024 + i.val) % 1024 = i.val; omega)
  simp only [efeat, ebias, ex, ew]
  rfl

/-- Branch 1 (size 64): the same reading with the slices taken at offset 1. -/
theorem ref_branch1 (b : Fin 16) (t : Fin 4096) (o : Fin 1024) :
    val_main_v29 (F := Ideal) x0 x1 x2 x3 (ix3 b t o)
      = branch (fun i => x0 (ix3 b t i)) (x1 (ix2 b t)) 64#32 (fun o i => x2 (ix3 (1 : Fin 4) o i)) (fun o => x3 (ix2 (1 : Fin 4) o)) o := by
  rw [val_main_v29_apply, val_main_v28_apply, val_main_v19_apply, val_main_v18_apply, val_main_v17_apply, val_main_v16_apply,
    val_main_c_0_apply, val_main_v27_apply, val_main_v22_apply, val_main_v26_apply, val_main_v25_apply, val_main_v24_apply,
    val_main_v23_apply]
  simp only [val_main_v21_apply, val_main_v20_apply]
  have efeat : idx_main_v18 (idx_main_v28 (ix3 b t o)) = ix2 b t :=
    funext fun a => Fin.ext (by match a with | ⟨0, _⟩ => rfl | ⟨1, _⟩ => rfl)
  have ebias : idx_main_v23 (idx_main_v24 (idx_main_v25 (idx_main_v26 (ix3 b t o)))) = ix2 (1 : Fin 4) o :=
    funext fun a => Fin.ext (by
      have ho : o.val < 1024 := o.isLt
      match a with
      | ⟨0, _⟩ => rfl
      | ⟨1, _⟩ => show o.val % 1024 = o.val; omega)
  have ex : ∀ i : Fin 1024, lidx_main_v22 (ix3 b t o) i = ix3 b t i := fun i =>
    funext fun a => Fin.ext (by match a with | ⟨0, _⟩ => rfl | ⟨1, _⟩ => rfl | ⟨2, _⟩ => rfl)
  have ew : ∀ i : Fin 1024, idx_main_v20 (idx_main_v21 (ridx_main_v22 (ix3 b t o) i)) = ix3 (1 : Fin 4) o i := fun i =>
    funext fun a => Fin.ext (by
      have ho : o.val < 1024 := o.isLt
      have hi : i.val < 1024 := i.isLt
      match a with
      | ⟨0, _⟩ => rfl
      | ⟨1, _⟩ => show (o.val * 1024 + i.val) / 1024 % 1024 = o.val; omega
      | ⟨2, _⟩ => show (o.val * 1024 + i.val) % 1024 = i.val; omega)
  simp only [efeat, ebias, ex, ew]
  rfl

/-- Branch 2 (size 128): slices at offset 2. -/
theorem ref_branch2 (b : Fin 16) (t : Fin 4096) (o : Fin 1024) :
    val_main_v44 (F := Ideal) x0 x1 x2 x3 (ix3 b t o)
      = branch (fun i => x0 (ix3 b t i)) (x1 (ix2 b t)) 128#32 (fun o i => x2 (ix3 (2 : Fin 4) o i)) (fun o => x3 (ix2 (2 : Fin 4) o)) o := by
  rw [val_main_v44_apply, val_main_v43_apply, val_main_v34_apply, val_main_v33_apply, val_main_v32_apply, val_main_v31_apply,
    val_main_c_1_apply, val_main_v42_apply, val_main_v37_apply, val_main_v41_apply, val_main_v40_apply, val_main_v39_apply,
    val_main_v38_apply]
  simp only [val_main_v36_apply, val_main_v35_apply]
  have efeat : idx_main_v33 (idx_main_v43 (ix3 b t o)) = ix2 b t :=
    funext fun a => Fin.ext (by match a with | ⟨0, _⟩ => rfl | ⟨1, _⟩ => rfl)
  have ebias : idx_main_v38 (idx_main_v39 (idx_main_v40 (idx_main_v41 (ix3 b t o)))) = ix2 (2 : Fin 4) o :=
    funext fun a => Fin.ext (by
      have ho : o.val < 1024 := o.isLt
      match a with
      | ⟨0, _⟩ => rfl
      | ⟨1, _⟩ => show o.val % 1024 = o.val; omega)
  have ex : ∀ i : Fin 1024, lidx_main_v37 (ix3 b t o) i = ix3 b t i := fun i =>
    funext fun a => Fin.ext (by match a with | ⟨0, _⟩ => rfl | ⟨1, _⟩ => rfl | ⟨2, _⟩ => rfl)
  have ew : ∀ i : Fin 1024, idx_main_v35 (idx_main_v36 (ridx_main_v37 (ix3 b t o) i)) = ix3 (2 : Fin 4) o i := fun i =>
    funext fun a => Fin.ext (by
      have ho : o.val < 1024 := o.isLt
      have hi : i.val < 1024 := i.isLt
      match a with
      | ⟨0, _⟩ => rfl
      | ⟨1, _⟩ => show (o.val * 1024 + i.val) / 1024 % 1024 = o.val; omega
      | ⟨2, _⟩ => show (o.val * 1024 + i.val) % 1024 = i.val; omega)
  simp only [efeat, ebias, ex, ew]
  rfl

/-- Branch 3 (size 256): slices at offset 3. -/
theorem ref_branch3 (b : Fin 16) (t : Fin 4096) (o : Fin 1024) :
    val_main_v59 (F := Ideal) x0 x1 x2 x3 (ix3 b t o)
      = branch (fun i => x0 (ix3 b t i)) (x1 (ix2 b t)) 256#32 (fun o i => x2 (ix3 (3 : Fin 4) o i)) (fun o => x3 (ix2 (3 : Fin 4) o)) o := by
  rw [val_main_v59_apply, val_main_v58_apply, val_main_v49_apply, val_main_v48_apply, val_main_v47_apply, val_main_v46_apply,
    val_main_c_2_apply, val_main_v57_apply, val_main_v52_apply, val_main_v56_apply, val_main_v55_apply, val_main_v54_apply,
    val_main_v53_apply]
  simp only [val_main_v51_apply, val_main_v50_apply]
  have efeat : idx_main_v48 (idx_main_v58 (ix3 b t o)) = ix2 b t :=
    funext fun a => Fin.ext (by match a with | ⟨0, _⟩ => rfl | ⟨1, _⟩ => rfl)
  have ebias : idx_main_v53 (idx_main_v54 (idx_main_v55 (idx_main_v56 (ix3 b t o)))) = ix2 (3 : Fin 4) o :=
    funext fun a => Fin.ext (by
      have ho : o.val < 1024 := o.isLt
      match a with
      | ⟨0, _⟩ => rfl
      | ⟨1, _⟩ => show o.val % 1024 = o.val; omega)
  have ex : ∀ i : Fin 1024, lidx_main_v52 (ix3 b t o) i = ix3 b t i := fun i =>
    funext fun a => Fin.ext (by match a with | ⟨0, _⟩ => rfl | ⟨1, _⟩ => rfl | ⟨2, _⟩ => rfl)
  have ew : ∀ i : Fin 1024, idx_main_v50 (idx_main_v51 (ridx_main_v52 (ix3 b t o) i)) = ix3 (3 : Fin 4) o i := fun i =>
    funext fun a => Fin.ext (by
      have ho : o.val < 1024 := o.isLt
      have hi : i.val < 1024 := i.isLt
      match a with
      | ⟨0, _⟩ => rfl
      | ⟨1, _⟩ => show (o.val * 1024 + i.val) / 1024 % 1024 = o.val; omega
      | ⟨2, _⟩ => show (o.val * 1024 + i.val) % 1024 = i.val; omega)
  simp only [efeat, ebias, ex, ew]
  rfl

/-- The reference's result is `G` of its arguments: the accumulation starts from the broadcast zero and adds
    the four branches in order, which is `rowOut`. -/
theorem ref_eq : val_main_v60 (F := Ideal) x0 x1 x2 x3 = G x0 x1 x2 x3 := by
  funext j
  obtain ⟨b, t, o, rfl⟩ : ∃ (b : Fin 16) (t : Fin 4096) (o : Fin 1024), j = ix3 b t o := ⟨j 0, j 1, j 2, eq_ix3 j⟩
  rw [val_main_v60_apply, val_main_v45_apply, val_main_v30_apply, val_main_v15_apply, val_main_v0_apply, val_main_cst_apply,
    ref_branch0, ref_branch1, ref_branch2, ref_branch3]
  rfl

end Cert.FeatLinear.Ref

end
-- ==== Proof.KernelBlock.lean ====
/-
  What the kernel body leaves in its output block, entry by entry.

  The body loads a [1024, 1024] block of activations, the block's 1024 feature sizes, the four matrices (stored
  transposed, [branch, input, output]) and the four bias rows, and stores one [1024, 1024] block.  Entry
  (r, o) of that block is `rowOut` of row `r` of the activation block: each matrix product into a zero
  accumulator is the plain sum over the contracted axis, the bias row is broadcast down the rows, the
  selection numbers are a column broadcast across, and the change of float format of the activations is the
  identity on the extended reals.
-/
import proofs.«150245_j85925115724421_1_alg».proof.Proof.Gen.KernelIdeal.Frame
import proofs.«150245_j85925115724421_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.FeatLinear.Kern

open Cert.KernelIdeal Cert.KernelIdeal.Gen Idealize.ShloMosaic Idealize.ShloMosaic.ValueIdx
open Cert.FeatLinear

theorem hz2 : (![0, 0] : Fin 2 → Nat) = fun _ => 0 := funext fun a => by fin_cases a <;> rfl
theorem hz1 : (![0] : Fin 1 → Nat) = fun _ => 0 := funext fun a => by fin_cases a <;> rfl

/-! ## The three non-pointwise pieces of a branch, read at (r, o) -/

/-- The column of selection numbers broadcast across the block: at (r, o) it is the selection number of row `r`.
    The compare gives one bit, widened to 32 bits and converted as a signed integer: 0 or 1. -/
theorem selCol_apply (v : IVec S1024 32) (cst : BitVec 32) (r o : Fin 1024) :
    (broadcastTo S1024x1024 (shapeCast S1024x1 (sitofp (F := Ideal) .f32 (extui 32 (cmpi .eq v (broadcast S1024 cst)) natLt_1_32))
      shapeCasts_S1024_S1024x1) broadcasts_S1024x1_S1024x1024 : FVec Ideal S1024x1024 .f32) (ix2 r o) = sel (v (ix1 r)) cst := by
  refine (broadcastTo_apply _ broadcasts_S1024x1_S1024x1024 (ix2 r o) (ix2 r (0 : Fin 1)) (fun a => ?_)).trans ?_
  · match a with
    | ⟨0, _⟩ => show r.val = if (1024 : Nat) = 1 then 0 else r.val; rw [if_neg (by decide)]
    | ⟨1, _⟩ => show 0 = if (1 : Nat) = 1 then 0 else o.val; rw [if_pos rfl]
  refine (shapeCast_apply _ shapeCasts_S1024_S1024x1 (ix2 r (0 : Fin 1)) (ix1 r) (by
    rw [Shape.rowMajor_val_one, Shape.rowMajor_val_two]; show r.val = r.val * 1 + 0; omega)).trans ?_
  show (((((IntOp.cmpi .eq (v (ix1 r)) cst).setWidth 32).toInt : ℝ)) : EReal) = _
  unfold sel
  rw [toInt_setWidth_bit]

/-- A bias row, flattened and restored, broadcast down the block: at (r, o) it is the row's entry `o`. -/
theorem biasRow_apply (v9 : Vec Ideal S1x1024 .f32) (r o : Fin 1024) :
    (broadcastTo S1024x1024 (shapeCast S1x1024 (shapeCast S1024 v9 shapeCasts_S1x1024_S1024) shapeCasts_S1024_S1x1024)
      broadcasts_S1x1024_S1024x1024 : FVec Ideal S1024x1024 .f32) (ix2 r o) = v9 (ix2 (0 : Fin 1) o) := by
  rw [shapeCast_shapeCast]
  exact broadcastTo_1b_ab_apply v9 _ r o

/-! The matrix product's operand indices at output (r, o) and contraction index q: (r, q) on the left, (q, o) on the right. -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of the activation block with one [1, 1024, 1024] slab of the transposed matrices, into a zero
    accumulator: at (r, o) the sum over the input axis of activation (r, i) times slab entry (0, i, o). -/
theorem mm_apply (a : FVec Ideal S1024x1024 .bf16) (v6 : FVec Ideal S1x1024x1024 .bf16) (r o : Fin 1024) :
    matmul dot_S1024x1024_S1024x1024_S1024x1024_1_0_0_1_n_n none a (shapeCast S1024x1024 v6 shapeCasts_S1x1024x1024_S1024x1024)
      (constant S1024x1024 .f32 0x00000000#32) (ix2 r o) = ∑ i : Fin 1024, a (ix2 r i) * v6 (ix3 (0 : Fin 1) i o) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r o) ((ValueIdx.contrEquiv1 dot_S1024x1024_S1024x1024_S1024x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 r o) ((ValueIdx.contrEquiv1 dot_S1024x1024_S1024x1024_S1024x1024_1_0_0_1_n_n 1024 rfl rfl).symm k) = ix2 k o := funext fun a => Fin.ext (by
    match a with
    | ⟨0, _⟩ => exact (rhs_mm_0 _ _).trans hk
    | ⟨1, _⟩ => exact rhs_mm_1 _ _)
  rw [el, er, shapeCast_1ab_ab_apply]

/-! ## The loads of the resident operands -/

/-- Slab `k` of the resident matrices, loaded as [1, 1024, 1024]: entry (0, i, o) is entry (k, i, o). -/
theorem ld_slab (x2 : Vec Ideal S4x1024x1024 .bf16) (k : Nat) (hk : k < 4)
    (inb : ∀ a, (![k, 0, 0] : Fin 3 → Nat) a + S1x1024x1024.size a ≤ S4x1024x1024.size a) (i o : Fin 1024) :
    View.ld x2 (Rect.unit (s := S4x1024x1024) ![k, 0, 0] S1x1024x1024.size inb) (ix3 (0 : Fin 1) i o) = x2 (ix3 (⟨k, hk⟩ : Fin 4) i o) := by
  show x2 _ = x2 _
  refine congrArg x2 (funext fun a => Fin.ext ?_)
  match a with
  | ⟨0, _⟩ => show k + 1 * 0 = k; omega
  | ⟨1, _⟩ => show 0 + 1 * i.val = i.val; omega
  | ⟨2, _⟩ => show 0 + 1 * o.val = o.val; omega

/-- Row `k` of the resident bias rows, loaded as [1, 1024]: entry (0, o) is entry (k, o). -/
theorem ld_biasrow (x3 : Vec Ideal S4x1024 .f32) (k : Nat) (hk : k < 4)
    (inb : ∀ a, (![k, 0] : Fin 2 → Nat) a + S1x1024.size a ≤ S4x1024.size a) (o : Fin 1024) :
    View.ld x3 (Rect.unit (s := S4x1024) ![k, 0] S1x1024.size inb) (ix2 (0 : Fin 1) o) = x3 (ix2 (⟨k, hk⟩ : Fin 4) o) := by
  show x3 _ = x3 _
  refine congrArg x3 (funext fun a => Fin.ext ?_)
  match a with
  | ⟨0, _⟩ => show k + 1 * 0 = k; omega
  | ⟨1, _⟩ => show 0 + 1 * o.val = o.val; omega

/-! ## The stored block -/

/-- Entry (r, o) of the block the body stores is `rowOut` of row `r` of the activation block, that row's feature
    size, the resident matrices read transposed and the resident bias rows. -/
theorem out_apply (x0 : Vec Ideal S1024x1024 .f32) (x1 : Vec Ideal S1024 .i32) (x2 : Vec Ideal S4x1024x1024 .bf16) (x3 : Vec Ideal S4x1024 .f32)
    (r o : Fin 1024) :
    out0_4 x0 x1 x2 x3 (ix2 r o)
      = rowOut (fun i => x0 (ix2 r i)) (x1 (ix1 r)) (fun k o i => x2 (ix3 k i o)) (fun k o => x3 (ix2 k o)) o := by
  unfold out0_4
  rw [View.canon_unit_zero hz2]
  simp only [View.ld_unit_zero (S := S1024x1024) hz2, View.ld_unit_zero (S := S1024) hz1]
  unfold k0_pay1 k0_pay4 k0_pay2 k0_pay3
  dsimp only
  simp only [addf_apply, mulf_apply, selCol_apply, biasRow_apply, mm_apply, shapeCast_self, truncf_apply, broadcast_apply]
  simp only [ld_slab x2 0 (by decide) inb_S4x1024x1024_S1x1024x1024_0_0_0, ld_slab x2 1 (by decide) inb_S4x1024x1024_S1x1024x1024_1_0_0,
    ld_slab x2 2 (by decide) inb_S4x1024x1024_S1x1024x1024_2_0_0, ld_slab x2 3 (by decide) inb_S4x1024x1024_S1x1024x1024_3_0_0,
    ld_biasrow x3 0 (by decide) inb_S4x1024_S1x1024_0_0, ld_biasrow x3 1 (by decide) inb_S4x1024_S1x1024_1_0,
    ld_biasrow x3 2 (by decide) inb_S4x1024_S1x1024_2_0, ld_biasrow x3 3 (by decide) inb_S4x1024_S1x1024_3_0]
  rfl

end Cert.FeatLinear.Kern

end
-- ==== Proof.KernelArray.lean ====
/-
  From the stored blocks to the result array, and through the reshapes around the launch.

  Point `t` of the 64-point grid reads rows 1024·t … 1024·t + 1023 of the flattened activations and feature
  sizes, the whole of the transposed matrices and bias rows, and writes back rows 1024·t … of the flattened
  result.  So what it writes is block `t` of ONE function of the launch's arrays (`Gflat`), the 64 blocks
  cover every row, and the array after the run is that function.  Before the launch the activations and the
  sizes are flattened, [16, 4096, ·] to [65536, ·] with row index batch · 4096 + token, and each matrix is
  transposed (its change of float format is the identity on the extended reals); after it the result is
  reshaped back.  Read at (batch, token, output) this is `G` of the arguments.
-/
import proofs.«150245_j85925115724421_1_alg».proof.Proof.KernelBlock
import Idealize.ShloMosaic.Lib.StableHlo.Run

set_option maxRecDepth 16384

noncomputable section

namespace Cert.FeatLinear.Kern

open Cert.KernelIdeal Cert.KernelIdeal.Gen Idealize.ShloMosaic Idealize.ShloMosaic.TcCoe Idealize.SL.Sem Idealize.ShloMosaic.ValueIdx
open Idealize.ShloMosaic.Pipeline (Dat)
open Cert.FeatLinear

variable (m : (ℓ : Loc nD τ sig) → Buf (Elt Ideal) ℓ) (ρ : Dev nD → PrngReg)

/-- The printed index maps over the 64 points: the activations, the sizes and the result move one block of
    rows per point; the matrices and the bias rows stay at block zero. -/
theorem idx_facts : ∀ t : Fin cfg0.N,
    win0_0.index t (0 : Fin 2) = t.val ∧ win0_0.index t (1 : Fin 2) = 0
    ∧ win0_1.index t (0 : Fin 1) = t.val
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block stored from blocks that are rows `1024·tv + r` of flattened arrays is the same rows of `Gflat`. -/
theorem block_eq (x0 : Vec Ideal S1024x1024 .f32) (x1 : Vec Ideal S1024 .i32) (x2 : Vec Ideal S4x1024x1024 .bf16) (x3 : Vec Ideal S4x1024 .f32)
    (X0 : S65536x1024.Idx → EReal) (X1 : S65536.Idx → BitVec 32) (X2 : S4x1024x1024.Idx → EReal) (X3 : S4x1024.Idx → EReal)
    (tv : Nat) (ht : tv < 64)
    (h0 : ∀ (r i : Fin 1024), x0 (ix2 r i) = X0 (ix2 (⟨tv * 1024 + r.val, by have := r.isLt; omega⟩ : Fin 65536) i))
    (h1 : ∀ r : Fin 1024, x1 (ix1 r) = X1 (ix1 (⟨tv * 1024 + r.val, by have := r.isLt; omega⟩ : Fin 65536)))
    (h2 : ∀ (k : Fin 4) (i o : Fin 1024), x2 (ix3 k i o) = X2 (ix3 k i o))
    (h3 : ∀ (k : Fin 4) (o : Fin 1024), x3 (ix2 k o) = X3 (ix2 k o)) (r o : Fin 1024) :
    out0_4 x0 x1 x2 x3 (ix2 r o) = Gflat X0 X1 X2 X3 (ix2 (⟨tv * 1024 + r.val, by have := r.isLt; omega⟩ : Fin 65536) o) := by
  rw [out_apply]
  unfold Gflat
  simp only [h0, h1, h2, h3]

/-- What point `t` writes back is block `t` of `Gflat` of the arrays as the launch finds them. -/
theorem flushed_eq (c : Dev nD) (t : Fin cfg0.N) :
    (dats m 0 c).flushed 4 t
      = ((cfg0.win 4).blk t).view.read (Elt Ideal) (Gflat (V m c main_v0) (V m c main_v1) (V m c main_v3) (V m c main_arg3)) := by
  show (cfg0.win 4).cut (grid0.coords t) ((dats m 0 c).after 4 t) = _
  rw [after0_4]
  obtain ⟨e00, e01, e10, e20, e21, e22, e30, e31, e40, e41⟩ := idx_facts t
  have htN : t.val < 64 := lt_of_lt_of_eq t.isLt N_0
  funext y
  show out0_4 (iblk m c 0 t) (iblk m c 1 t) (iblk m c 2 t) (iblk m c 3 t) y
    = Gflat (V m c main_v0) (V m c main_v1) (V m c main_v3) (V m c main_arg3) (((cfg0.win 4).blk t).view.emb y)
  have hy0 : (y 0).val < 1024 := (y 0).isLt
  have hy1 : (y 1).val < 1024 := (y 1).isLt
  have e4 : ((cfg0.win 4).blk t).view.emb y = ix2 (⟨t.val * 1024 + (y 0).val, by omega⟩ : Fin 65536) (⟨(y 1).val, hy1⟩ : Fin 1024) :=
    funext fun a => Fin.ext (by
      match a with
      | ⟨0, _⟩ => show win0_4.index t (0 : Fin 2) * 1024 + 1 * (y 0).val = t.val * 1024 + (y 0).val; rw [e40]; omega
      | ⟨1, _⟩ => show win0_4.index t (1 : Fin 2) * 1024 + 1 * (y 1).val = (y 1).val; rw [e41]; omega)
  rw [e4]
  have hy : y = ix2 (⟨(y 0).val, hy0⟩ : Fin 1024) (⟨(y 1).val, hy1⟩ : Fin 1024) :=
    funext fun a => Fin.ext (by match a with | ⟨0, _⟩ => rfl | ⟨1, _⟩ => rfl)
  refine (congrArg (out0_4 (iblk m c 0 t) (iblk m c 1 t) (iblk m c 2 t) (iblk m c 3 t)) hy).trans ?_
  refine block_eq (iblk m c 0 t) (iblk m c 1 t) (iblk m c 2 t) (iblk m c 3 t) (V m c main_v0) (V m c main_v1) (V m c main_v3) (V m c main_arg3)
    t.val htN ?_ ?_ ?_ ?_ ⟨(y 0).val, hy0⟩ ⟨(y 1).val, hy1⟩
  · intro r i
    show V m c main_v0 (((cfg0.win 0).blk t).view.emb (ix2 r i)) = _
    refine congrArg (V m c main_v0) (funext fun a => Fin.ext ?_)
    have hr : r.val < 1024 := r.isLt
    match a with
    | ⟨0, _⟩ => show win0_0.index t (0 : Fin 2) * 1024 + 1 * r.val = t.val * 1024 + r.val; rw [e00]; omega
    | ⟨1, _⟩ => show win0_0.index t (1 : Fin 2) * 1024 + 1 * i.val = i.val; rw [e01]; omega
  · intro r
    show V m c main_v1 (((cfg0.win 1).blk t).view.emb (ix1 r)) = _
    refine congrArg (V m c main_v1) (funext fun a => Fin.ext ?_)
    match a with
    | ⟨0, _⟩ => show win0_1.index t (0 : Fin 1) * 1024 + 1 * r.val = t.val * 1024 + r.val; rw [e10]; omega
  · intro k i o
    show V m c main_v3 (((cfg0.win 2).blk t).view.emb (ix3 k i o)) = _
    refine congrArg (V m c main_v3) (funext fun a => Fin.ext ?_)
    match a with
    | ⟨0, _⟩ => show win0_2.index t (0 : Fin 3) * 4 + 1 * k.val = k.val; rw [e20]; omega
    | ⟨1, _⟩ => show win0_2.index t (1 : Fin 3) * 1024 + 1 * i.val = i.val; rw [e21]; omega
    | ⟨2, _⟩ => show win0_2.index t (2 : Fin 3) * 1024 + 1 * o.val = o.val; rw [e22]; omega
  · intro k o
    show V m c main_arg3 (((cfg0.win 3).blk t).view.emb (ix2 k o)) = _
    refine congrArg (V m c main_arg3) (funext fun a => Fin.ext ?_)
    match a with
    | ⟨0, _⟩ => show win0_3.index t (0 : Fin 2) * 4 + 1 * k.val = k.val; rw [e30]; omega
    | ⟨1, _⟩ => show win0_3.index t (1 : Fin 2) * 1024 + 1 * o.val = o.val; rw [e31]; omega

/-- An index of the flattened result is in point `t`'s block iff each coordinate is in the block's range. -/
theorem mem_blk (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v4).slice (win0_4.rect t)).set ↔ _
  rw [View.set_slice_whole, Rect.mem_set_unit]
  exact Iff.rfl

/-- Row `n` of the flattened result lies in the block of point `n / 1024`: the 64 blocks cover the array. -/
theorem cover (i : S65536x1024.Idx) : ∃ t : Fin cfg0.N, (cfg0.win 4).flush t = true ∧ i ∈ ((cfg0.win 4).blk t).view.set := by
  have hi0 : (i 0).val < 65536 := (i 0).isLt
  have hi1 : (i 1).val < 1024 := (i 1).isLt
  have hlt : (i 0).val / 1024 < cfg0.N := lt_of_lt_of_eq (by omega : (i 0).val / 1024 < 64) N_0.symm
  obtain ⟨-, -, -, -, -, -, -, -, e40, e41⟩ := idx_facts ⟨(i 0).val / 1024, hlt⟩
  refine ⟨⟨(i 0).val / 1024, hlt⟩, flush0_4 _, ?_⟩
  rw [mem_blk]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, hlt⟩ (1 : Fin 2) * 1024 ≤ (i 1).val ∧ (i 1).val < win0_4.index ⟨(i 0).val / 1024, hlt⟩ (1 : Fin 2) * 1024 + 1024
    rw [e41]; omega

/-- The flattened result after the run is `Gflat` of the arrays as the launch finds them. -/
theorem final (c : Dev nD) :
    (dats m 0 c).arrAt 4 cfg0.N = Gflat (V m c main_v0) (V m c main_v1) (V m c main_v3) (V m c main_arg3) :=
  (dats m 0 c).arrAt_eq_of_cover 4 _ (fun t _ => flushed_eq m c t) cover

/-! ## The host operations before the launch -/

theorem V_v0 (c : Dev nD) : (V m c main_v0 : S65536x1024.Idx → EReal)
    = shapeCast S65536x1024 (m ((c : Thread nD τ).loc main_arg0)) shapeCasts_S16x4096x1024_S65536x1024 := by
  show StableHlo.after hostOps0 (fun b => m (c, b)) (Proc.devRef .tc main_v0) = _
  after_results
  rfl

theorem V_v1 (c : Dev nD) : (V m c main_v1 : S65536.Idx → BitVec 32)
    = shapeCast S65536 (m ((c : Thread nD τ).loc main_arg1)) shapeCasts_S16x4096_S65536 := by
  show StableHlo.after hostOps0 (fun b => m (c, b)) (Proc.devRef .tc main_v1) = _
  after_results
  rfl

theorem V_v3 (c : Dev nD) : (V m c main_v3 : S4x1024x1024.Idx → EReal)
    = truncf (F := Ideal) .bf16 (transpose S4x1024x1024 [0, 2, 1] (m ((c : Thread nD τ).loc main_arg2)) transposes_S4x1024x1024_S4x1024x1024_0_2_1) bitsLt_bf16_f32 := by
  show StableHlo.after hostOps0 (fun b => m (c, b)) (Proc.devRef .tc main_v3) = _
  after_results

/-! ## The result, read at (batch, token, output) -/

/-- `Gflat` of the flattened activations and sizes and the transposed matrices, at row batch · 4096 + token, is
    `G` of the arguments at (batch, token): the flattening keeps row-major positions, and entry (k, i, o) of the
    transposed stack is entry (k, o, i) of the stack. -/
theorem gflat_eq (c : Dev nD) (b : Fin 16) (t : Fin 4096) (o : Fin 1024) :
    Gflat (V m c main_v0) (V m c main_v1) (V m c main_v3) (V m c main_arg3)
        (ix2 (⟨b.val * 4096 + t.val, by have := b.isLt; have := t.isLt; omega⟩ : Fin 65536) o)
      = G (m ((c : Thread nD τ).loc main_arg0)) (m ((c : Thread nD τ).loc main_arg1)) (m ((c : Thread nD τ).loc main_arg2))
          (m ((c : Thread nD τ).loc main_arg3)) (ix3 b t o) := by
  have hb : b.val < 16 := b.isLt
  have ht : t.val < 4096 := t.isLt
  have ex : ∀ i : Fin 1024, (V m c main_v0 : S65536x1024.Idx → EReal) (ix2 (⟨b.val * 4096 + t.val, by omega⟩ : Fin 65536) i)
      = (m ((c : Thread nD τ).loc main_arg0) : S16x4096x1024.Idx → EReal) (ix3 b t i) := fun i => by
    rw [V_v0]
    exact shapeCast_apply _ shapeCasts_S16x4096x1024_S65536x1024 _ (ix3 b t i) (by
      rw [Shape.rowMajor_val_three, Shape.rowMajor_val_two]
      show (b.val * 4096 + t.val) * 1024 + i.val = (b.val * 4096 + t.val) * 1024 + i.val
      rfl)
  have ef : (V m c main_v1 : S65536.Idx → BitVec 32) (ix1 (⟨b.val * 4096 + t.val, by omega⟩ : Fin 65536))
      = (m ((c : Thread nD τ).loc main_arg1) : S16x4096.Idx → BitVec 32) (ix2 b t) := by
    rw [V_v1]
    exact shapeCast_apply _ shapeCasts_S16x4096_S65536 _ (ix2 b t) (by
      rw [Shape.rowMajor_val_two, Shape.rowMajor_val_one]
      show b.val * 4096 + t.val = b.val * 4096 + t.val
      rfl)
  have ew : ∀ (k : Fin 4) (o i : Fin 1024), (V m c main_v3 : S4x1024x1024.Idx → EReal) (ix3 k i o)
      = (m ((c : Thread nD τ).loc main_arg2) : S4x1024x1024.Idx → EReal) (ix3 k o i) := fun k o i => by
    rw [V_v3, truncf_apply]
    exact transpose_ix3_021_apply _ transposes_S4x1024x1024_S4x1024x1024_0_2_1 k i o
  have eb : (V m c main_arg3 : S4x1024.Idx → EReal) = m ((c : Thread nD τ).loc main_arg3) := V_main_arg3 m c
  unfold Gflat G
  simp only [ex, ef, ew, eb]

/-- What the program leaves in its result: the lines after the launch reshape the flattened result back, and at
    (batch, token, output) that reads row batch · 4096 + token of `Gflat`, which is `G` of the arguments. -/
theorem tail_eq (c : Dev nD) :
    Pipeline.afterTail₀ cfgs (dats m) 0 (V0 m) [hostOps1] c main_v5
      = G (m ((c : Thread nD τ).loc main_arg0)) (m ((c : Thread nD τ).loc main_arg1)) (m ((c : Thread nD τ).loc main_arg2))
          (m ((c : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = Gflat (V m c main_v0) (V m c main_v1) (V m c main_v3) (V m c main_arg3) :=
    (Pipeline.withArrays_arr spec0 launch0.win.arr_inj c _ _ 4).trans (final m c)
  funext j
  obtain ⟨b, t, o, rfl⟩ : ∃ (b : Fin 16) (t : Fin 4096) (o : Fin 1024), j = ix3 b t o := ⟨j 0, j 1, j 2, eq_ix3 j⟩
  have hb : b.val < 16 := b.isLt
  have ht : t.val < 4096 := t.isLt
  show shapeCast S16x4096x1024 (Pipeline.withArrays (cfgs 0).spec c (V0 m c) (fun w => (dats m 0 c).arrAt w (cfgs 0).N) (Proc.devRef .tc main_v4))
    shapeCasts_S65536x1024_S16x4096x1024 (ix3 b t o) = _
  refine (shapeCast_apply _ shapeCasts_S65536x1024_S16x4096x1024 (ix3 b t o) (ix2 (⟨b.val * 4096 + t.val, by omega⟩ : Fin 65536) o) (by
    rw [Shape.rowMajor_val_two, Shape.rowMajor_val_three]
    show (b.val * 4096 + t.val) * 1024 + o.val = (b.val * 4096 + t.val) * 1024 + o.val
    rfl)).trans ?_
  exact (congrFun hw _).trans (gflat_eq m c b t o)

/-! ## The run -/

/-- Every weakly fair execution of the idealized kernel program ends with its result at `G` of the arguments and
    the arguments unchanged: the generated frame run, with the result read through the reshape after the launch. -/
theorem run : θ_run defs (onTc (τ := τ) (main (F := Ideal))) ⟨m, fun _ => 0, ρ⟩ fun r => ∀ c : Dev nD,
      r.2.mem ((c.tc : Thread nD τ).loc main_v5)
        = G (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.FeatLinear.Kern

end
-- ==== Proof.lean ====
/-
  The kernel and its reference compute the same function over the extended reals.

  Both programs compute, for every (batch, token) row `x` of the activations with declared feature size `f`,

      out[o] = 0 + Σ_{k = 0..3} [f = c_k] · (Σ_i x_i · W_k[o, i] + b_k[o]),     c = (32, 64, 128, 256),

  the four terms added in the same order.  The reference forms each product by contracting the activations'
  last axis with the matrix's input axis and selects with a [batch, token, 1] column of 0/1 numbers.  The
  kernel flattens (batch, token) to 65536 rows, transposes each matrix beforehand, walks the rows in 64 blocks
  of 1024, and in each block multiplies the block by the four transposed matrices (each product accumulated
  from zero, so it is the plain sum), adds the bias row, scales by the block's 0/1 column and accumulates;
  the result is reshaped back.  Its changes of float format are the identity on the extended reals, and the
  kernel's 0/1 numbers (a compared bit widened and converted as signed) are the reference's (the bit converted
  as unsigned).  No law beyond reading both sides entry by entry is needed, so finiteness of the inputs is never
  used: the sums have the same terms in the same arrangement.

  `RowSpec` states the row formula and the two whole-array forms `G` (indexed batch, token, output) and
  `Gflat` (indexed row, output); `RefRow` reads the reference at an index; `KernelBlock` reads the block a
  grid point stores; `KernelArray` assembles the blocks into the result array and carries it through the
  reshapes around the launch.  The frames of the two kernel programs are the generated ones; the reference's
  frame is its generated run with the result dropped; the idealization rewrote nothing.
-/
import proofs.«150245_j85925115724421_1_alg».proof.Defs
import proofs.«150245_j85925115724421_1_alg».proof.Proof.Gen.Kernel
import proofs.«150245_j85925115724421_1_alg».proof.Proof.Gen.Kernel.Frame
import proofs.«150245_j85925115724421_1_alg».proof.Proof.Gen.KernelIdeal
import proofs.«150245_j85925115724421_1_alg».proof.Proof.Gen.KernelIdeal.Frame
import proofs.«150245_j85925115724421_1_alg».proof.Proof.Gen.ReferenceIdeal
import proofs.«150245_j85925115724421_1_alg».proof.Proof.Gen.ReferenceIdeal.Run
import proofs.«150245_j85925115724421_1_alg».proof.Proof.Gen.ReferenceIdeal.Read
import proofs.«150245_j85925115724421_1_alg».proof.Proof.Gen.Pre_finite_inputs
import proofs.«150245_j85925115724421_1_alg».proof.Proof.RefRow
import proofs.«150245_j85925115724421_1_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both idealized programs end with their result at `G` of the arguments: the kernel by its run read through
    the blocks and the reshapes, the reference by its generated run read at an index; the arguments agree. -/
theorem algebraic : Cert.algebraic_KernelIdeal_ReferenceIdeal := by
  intro m ρ m' ρ' _ hagree
  refine ⟨fun c => Cert.FeatLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.FeatLinear.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v60_eq _ _ _ _).trans ?_
  rw [Cert.FeatLinear.Ref.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
